-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 26
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Conv.lean ====
/-
  The function both programs compute.

  A graph-convolution layer over N = 50000 nodes with 128 features: with "agg" the per-node sum of the neighbours'
  feature rows (however it is obtained: both programs obtain it by the same gather and scatter-add), the layer's output is

      out[r, j] = max ( (Σ_k agg[r, k] · A[k, j]  +  Σ_k x[r, k] · B[k, j])  +  b[j] , 0 )

  where A and B are the two (already transposed) weight matrices and b the bias. One program adds the bias last, the
  other adds it between the two products: on the extended reals addition is commutative and associative without any
  finiteness assumption, so the two groupings are one value.
-/
import Idealize.ShloMosaic.PureOps.Ideal
import Idealize.ShloMosaic.PureOps.Ideal.Laws
import Idealize.ShloMosaic.Lib.ValueIdx

noncomputable section

open scoped BigOperators

namespace Cert.GraphConv

open Idealize.ShloMosaic Idealize.ShloMosaic.ValueIdx

/-- Node features, aggregated features and the output: 50000 rows of 128 entries. -/
abbrev Nodes : Shape := ⟨2, ![50000, 128]⟩
/-- A weight matrix. -/
abbrev Weights : Shape := ⟨2, ![128, 128]⟩
/-- The bias vector. -/
abbrev Bias : Shape := ⟨1, ![128]⟩

/-- One row of features against one column of a weight matrix. -/
def rowDot (u : Nodes.Idx → EReal) (M : Weights.Idx → EReal) (r : Fin 50000) (j : Fin 128) : EReal :=
  ∑ k : Fin 128, u (ix2 r k) * M (ix2 k j)

/-- The layer: the two products added, then the bias, then the rectifier against the zero word's value. -/
def conv (agg x : Nodes.Idx → EReal) (A B : Weights.Idx → EReal) (b : Bias.Idx → EReal) : Nodes.Idx → EReal :=
  fun i => max ((rowDot agg A (i 0) (i 1) + rowDot x B (i 0) (i 1)) + b (ix1 (i 1))) (Ideal.ofBits .f32 0x00000000#32)

/-- The layer at explicit coordinates. -/
theorem conv_ix2 (agg x : Nodes.Idx → EReal) (A B : Weights.Idx → EReal) (b : Bias.Idx → EReal) (r : Fin 50000) (j : Fin 128) :
    conv agg x A B b (ix2 r j)
      = max ((rowDot agg A r j + rowDot x B r j) + b (ix1 j)) (Ideal.ofBits .f32 0x00000000#32) := rfl

/-- Adding the bias between the two products instead of after them gives the same sum: on the extended reals
    commutes and associates, infinities included. -/
theorem bias_between (p q c : EReal) : (p + c) + q = (p + q) + c := add_right_comm p c q

end Cert.GraphConv

end
-- ==== Proof.RefConv.lean ====
/-
  The reference program's result, index by index, is the layer of Conv.lean.

  Its last stage is max(·, 0) of ((agg·A + bias) + x·B): each matrix product read at (r, j) is the sum over k of row r
  against column j, the bias is broadcast along the rows, and the bias added between the two products is the bias added
  after them.
-/
import proofs.«175848_j45200235823724_1_alg».proof.Proof.Gen.ReferenceIdeal.Read
import proofs.«175848_j45200235823724_1_alg».proof.Proof.Conv

noncomputable section

open scoped BigOperators

namespace Cert.GraphConv.Ref

open Cert.ReferenceIdeal Cert.ReferenceIdeal.Gen Cert.ReferenceIdeal.Read
open Idealize.ShloMosaic Idealize.ShloMosaic.ValueIdx Cert.GraphConv

/-- Row r of the left operand at k, as the first product reads it. -/
theorem lidx15 (i : S50000x128.Idx) (k : Fin 128) : lidx_main_v15 i k = ix2 (i 0) k :=
  funext fun a => Fin.ext (by match a with | ⟨0, _⟩ => rfl | ⟨1, _⟩ => rfl)
/-- Column j of the right operand at k, as the first product reads it. -/
theorem ridx15 (i : S50000x128.Idx) (k : Fin 128) : ridx_main_v15 i k = ix2 k (i 1) :=
  funext fun a => Fin.ext (by match a with | ⟨0, _⟩ => rfl | ⟨1, _⟩ => rfl)
/-- The same for the second product. -/
theorem lidx20 (i : S50000x128.Idx) (k : Fin 128) : lidx_main_v20 i k = ix2 (i 0) k :=
  funext fun a => Fin.ext (by match a with | ⟨0, _⟩ => rfl | ⟨1, _⟩ => rfl)
theorem ridx20 (i : S50000x128.Idx) (k : Fin 128) : ridx_main_v20 i k = ix2 k (i 1) :=
  funext fun a => Fin.ext (by match a with | ⟨0, _⟩ => rfl | ⟨1, _⟩ => rfl)
/-- The bias entry the two broadcasts deliver at (r, j) is entry j. -/
theorem bidx (i : S50000x128.Idx) : idx_main_v16 (idx_main_v17 i) = ix1 (i 1) :=
  funext fun a => Fin.ext (by match a with | ⟨0, _⟩ => rfl)

/-- The reference's result array is the layer of its aggregated features, its features, its two transposed weight
    matrices and its bias. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v22 (F := Ideal) x0 x1 x2 x3 x4
      = conv (val_main_v13 (F := Ideal) x0 x1) x0 (val_main_v14 (F := Ideal) x2) (val_main_v19 (F := Ideal) x4) x3 := by
  funext i
  rw [val_main_v22_apply, val_main_v21_apply, val_main_v18_apply, val_main_v15_apply, val_main_v20_apply,
    val_main_v17_apply, val_main_v16_apply, val_main_call0_v0_apply, val_main_call0_cst_apply]
  simp only [lidx15, ridx15, lidx20, ridx20, bidx, Ideal.addf_def, Ideal.maximumf_def, Ideal.ofBits_def]
  rw [bias_between]
  rfl

end Cert.GraphConv.Ref

end
-- ==== Proof.Operands.lean ====
/-
  What the kernel's region finds in its operand arrays.

  Before the region the program gathers the source rows of the features, scatter-adds them at the destination rows
  into a zero array (the aggregated features), transposes the two weight matrices and lays the bias out as one row.
  The region's operand arrays are exactly those terms of the program's arguments.
-/
import proofs.«175848_j45200235823724_1_alg».proof.Proof.Gen.KernelIdeal.Frame
import Idealize.ShloMosaic.Lib.StableHlo.Run

noncomputable section

namespace Cert.GraphConv.Operands

open Cert.KernelIdeal Cert.KernelIdeal.Gen
open Idealize.ShloMosaic Idealize.ShloMosaic.TcCoe Idealize.SL.Sem Idealize.ShloMosaic.StableHlo

variable {F : FTy → Type} [FloatOps F]

/-- The aggregated features: the features' rows gathered at the (wrapped) source indices, added into a zero array at
    the destination indices. -/
def aggregated (x0 : (⟨S50000x128, .f32⟩ : BufTy).Contents (Elt F)) (x1 : (⟨S2x800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] x1 slices_S2x800000_S1x800000_1_0) shapeCasts_S1x800000_S800000)) (Host.gather gather_S50000x128_S800000x1_S800000x128_1_0_n_n_0_1_1128 x0 (broadcastInDim S800000x1 ![0] bcast_S800000_S800000x1_0 (select (cmpi .slt (shapeCast _ (extractStridedSlice S1x800000 ![0, 0] x1 slices_S2x800000_S1x800000_0_0) shapeCasts_S1x800000_S800000) (broadcastInDim S800000 ![] bcast_S_S800000 (constantI S_ 32 0#32))) (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))

variable (m : (ℓ : Loc nD τ sig) → Buf (Elt F) ℓ)

/-- The region's first operand is the aggregated features of the arguments. -/
theorem found_aggregated (c : Dev nD) :
    (V m c main_v13 : (⟨S50000x128, .f32⟩ : BufTy).Contents (Elt F))
      = aggregated (F := F) (m ((c : Thread nD τ).loc main_arg0)) (m ((c : Thread nD τ).loc main_arg1)) := by
  dsimp only [V, hostOps0]; after_results <;> rfl

/-- Its third operand is the first weight matrix transposed. -/
theorem found_relT (c : Dev nD) :
    (V m c main_v14 : (⟨S128x128, .f32⟩ : BufTy).Contents (Elt F))
      = transpose S128x128 [1, 0] (m ((c : Thread nD τ).loc main_arg2)) transposes_S128x128_S128x128_1_0 := by
  dsimp only [V, hostOps0]; after_results <;> rfl

/-- Its fourth operand is the second weight matrix transposed. -/
theorem found_rootT (c : Dev nD) :
    (V m c main_v15 : (⟨S128x128, .f32⟩ : BufTy).Contents (Elt F))
      = transpose S128x128 [1, 0] (m ((c : Thread nD τ).loc main_arg4)) transposes_S128x128_S128x128_1_0 := by
  dsimp only [V, hostOps0]; after_results <;> rfl

/-- Its fifth operand is the bias as one row. -/
theorem found_biasRow (c : Dev nD) :
    (V m c main_v16 : (⟨S1x128, .f32⟩ : BufTy).Contents (Elt F))
      = shapeCast S1x128 (m ((c : Thread nD τ).loc main_arg3)) shapeCasts_S128_S1x128 := by
  dsimp only [V, hostOps0]; after_results <;> rfl

end Cert.GraphConv.Operands

end
-- ==== Proof.Body.lean ====
/-
  The kernel body at one entry of a block.

  On a block of 5000 rows the body computes, at row p and column q,

      max ( (Σ_k a[p, k] · A[k, q]  +  Σ_k x[p, k] · B[k, q])  +  b[0, q] , 0 )

  from the block a of aggregated features, the block x of features, the two weight matrices and the bias row: the
  narrowing to bf16 before each product is the identity on extended reals, a product into the zero accumulator is the
  plain sum over the contracted axis, and the bias row is repeated down the rows.
-/
import proofs.«175848_j45200235823724_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GraphConv.Body

open Cert.KernelIdeal Cert.KernelIdeal.Gen
open Idealize.ShloMosaic Idealize.ShloMosaic.ValueIdx

/-! ## The product's operand indices -/

/-- The left operand is read in the output's row; -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- at the contracted position; -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted position, -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- in the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at (p, q): row p against column q. -/
theorem blockDot {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The body's stored value at (p, q). -/
theorem stored_apply (a x : Vec Ideal S5000x128 .f32) (A B : Vec Ideal S128x128 .f32) (b : Vec Ideal S1x128 .f32)
    (p : Fin 5000) (q : Fin 128) :
    k0_pay1 (F := Ideal) a x A B b (ix2 p q)
      = max (((∑ k : Fin 128, a (ix2 p k) * A (ix2 k q)) + ∑ k : Fin 128, x (ix2 p k) * B (ix2 k q)) + b (ix2 (0 : Fin 1) q))
          (Ideal.ofBits .f32 0x00000000#32) := by
  unfold k0_pay1
  rw [maximumf_apply, addf_apply, addf_apply, broadcast_apply, blockDot, blockDot, broadcastTo_1b_ab_apply]
  simp only [shapeCast_self, truncf_apply]
  rfl

end Cert.GraphConv.Body

end
-- ==== Proof.Entry.lean ====
/-
  One entry of one block against the layer.
-/
import proofs.«175848_j45200235823724_1_alg».proof.Proof.Conv
import proofs.«175848_j45200235823724_1_alg».proof.Proof.Body

noncomputable section

open scoped BigOperators

namespace Cert.GraphConv.Entry

open Cert.KernelIdeal Cert.KernelIdeal.Gen
open Idealize.ShloMosaic Idealize.ShloMosaic.ValueIdx
open Cert.GraphConv

/-- One entry of a block: if row p of the two row blocks is row r of the arrays, and the matrices and the bias row are
    the arrays', the body's stored value at (p, q) is the layer at (r, q). -/
theorem block_entry (a x : Vec Ideal S5000x128 .f32) (A B : Vec Ideal S128x128 .f32) (b : Vec Ideal S1x128 .f32)
    (agg feat : Nodes.Idx → EReal) (A' B' : Weights.Idx → EReal) (b' : Bias.Idx → EReal)
    (r : Fin 50000) (p : Fin 5000) (q : Fin 128)
    (ha : ∀ k : Fin 128, a (ix2 p k) = agg (ix2 r k)) (hx : ∀ k : Fin 128, x (ix2 p k) = feat (ix2 r k))
    (hA : ∀ k : Fin 128, A (ix2 k q) = A' (ix2 k q)) (hB : ∀ k : Fin 128, B (ix2 k q) = B' (ix2 k q))
    (hb : b (ix2 (0 : Fin 1) q) = b' (ix1 q)) :
    k0_pay1 (F := Ideal) a x A B b (ix2 p q) = conv agg feat A' B' b' (ix2 r q) := by
  rw [Body.stored_apply, conv_ix2]
  unfold rowDot
  simp only [ha, hx, hA, hB, hb]

end Cert.GraphConv.Entry

end
-- ==== Proof.Grid.lean ====
/-
  The grid of the kernel's region.

  Ten points; at point t the two row-block operands and the result sit at block row t (rows 5000·t … 5000·t + 4999),
  the weight matrices and the bias row at their only block. The ten result blocks tile the 50000 rows.
-/
import proofs.«175848_j45200235823724_1_alg».proof.Proof.Gen.KernelIdeal.Value
import Idealize.ShloMosaic.Lib.ValueIdx

noncomputable section

open scoped BigOperators

namespace Cert.GraphConv.Grid

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

theorem offsets_zero : (![0, 0] : Fin 2 → Nat) = fun _ => 0 := funext fun a => by fin_cases a <;> rfl

/-- The index maps over the ten points: the two row blocks and the result block sit at block row t, everything else
    at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row has its point. -/
theorem point_of_blockRow : ∀ s : Fin 10, ∃ t : Fin cfg0.N, t.val = s.val :=
  (by decide +kernel : ∀ s : Fin 10, ∃ t : Fin grid0.N, t.val = s.val)

/-- An index of the result array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- Row r lies in the block of point r / 5000: the ten blocks tile the array. -/
theorem tiled (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := point_of_blockRow ⟨(i 0).val / 5000, by omega⟩
  have ht' : t.val = (i 0).val / 5000 := ht
  obtain ⟨e00, e01, e10, e11, e20, e21, e30, e31, e40, e41, e50, e51⟩ := index_maps t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Cert.GraphConv.Grid

end
-- ==== Proof.Written.lean ====
/-
  What a grid point writes back.

  Point t reads rows 5000·t … 5000·t + 4999 of the aggregated features and of the features, the whole of the two weight
  matrices and of the bias row; what it writes back is that block of rows of the layer of the program's arguments.
-/
import proofs.«175848_j45200235823724_1_alg».proof.Proof.Gen.KernelIdeal.Value
import proofs.«175848_j45200235823724_1_alg».proof.Proof.Operands
import proofs.«175848_j45200235823724_1_alg».proof.Proof.Entry
import proofs.«175848_j45200235823724_1_alg».proof.Proof.Grid

noncomputable section

open scoped BigOperators

namespace Cert.GraphConv.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.GraphConv Cert.GraphConv.Operands Cert.GraphConv.Entry Cert.GraphConv.Grid

variable (m : (ℓ : Loc nD τ sig) → Buf (Elt Ideal) ℓ) (ρ : Dev nD → PrngReg)

/-- The layer of the program's arguments on core c. -/
def layer (c : Dev nD) : S50000x128.Idx → EReal :=
  conv (aggregated (F := Ideal) (m ((c : Thread nD τ).loc main_arg0)) (m ((c : Thread nD τ).loc main_arg1)))
    (m ((c : Thread nD τ).loc main_arg0))
    (transpose S128x128 [1, 0] (m ((c : Thread nD τ).loc main_arg2)) transposes_S128x128_S128x128_1_0)
    (transpose S128x128 [1, 0] (m ((c : Thread nD τ).loc main_arg4)) transposes_S128x128_S128x128_1_0)
    (m ((c : Thread nD τ).loc main_arg3))

/-- Writing back the whole of an uncut block: the written block at an entry is the stored block at that entry. -/
theorem cut_at {α : Type} (X : S5000x128.Idx → α) (t : Fin cfg0.N) (p : Fin 5000) (q : Fin 128) :
    (win0 5).cut (grid0.coords t) X (ix2 p q) = X (ix2 p q) := rfl

/-- Reading an array through point t's result block: the array under the block's index. -/
theorem read_at (G : S50000x128.Idx → EReal) (t : Fin cfg0.N) (y : ((cfg0.win 5).xblock (cfg0.grid.coords t)).Idx) :
    ((cfg0.win 5).blk t).view.read (Elt Ideal) G y = G (((cfg0.win 5).blk t).view.emb y) := rfl

/-- The same through each operand's block. -/
theorem read_rows0 (G : S50000x128.Idx → EReal) (t : Fin cfg0.N) (y : ((cfg0.win 0).xblock (cfg0.grid.coords t)).Idx) :
    ((cfg0.win 0).blk t).view.read (Elt Ideal) G y = G (((cfg0.win 0).blk t).view.emb y) := rfl
theorem read_rows1 (G : S50000x128.Idx → EReal) (t : Fin cfg0.N) (y : ((cfg0.win 1).xblock (cfg0.grid.coords t)).Idx) :
    ((cfg0.win 1).blk t).view.read (Elt Ideal) G y = G (((cfg0.win 1).blk t).view.emb y) := rfl
theorem read_mat2 (G : S128x128.Idx → EReal) (t : Fin cfg0.N) (y : ((cfg0.win 2).xblock (cfg0.grid.coords t)).Idx) :
    ((cfg0.win 2).blk t).view.read (Elt Ideal) G y = G (((cfg0.win 2).blk t).view.emb y) := rfl
theorem read_mat3 (G : S128x128.Idx → EReal) (t : Fin cfg0.N) (y : ((cfg0.win 3).xblock (cfg0.grid.coords t)).Idx) :
    ((cfg0.win 3).blk t).view.read (Elt Ideal) G y = G (((cfg0.win 3).blk t).view.emb y) := rfl
theorem read_row4 (G : S1x128.Idx → EReal) (t : Fin cfg0.N) (y : ((cfg0.win 4).xblock (cfg0.grid.coords t)).Idx) :
    ((cfg0.win 4).blk t).view.read (Elt Ideal) G y = G (((cfg0.win 4).blk t).view.emb y) := rfl

/-- What point t writes back is block t of the layer. -/
theorem written_eq (c : Dev nD) (t : Fin cfg0.N) :
    (dats m 0 c).flushed 5 t = ((cfg0.win 5).blk t).view.read (Elt Ideal) (layer m c) := by
  rw [flushed5]
  unfold out0_5
  rw [View.canon_unit_zero offsets_zero]
  simp only [View.ld_unit_zero (S := S5000x128) offsets_zero, View.ld_unit_zero (S := S128x128) offsets_zero,
    View.ld_unit_zero (S := S1x128) offsets_zero]
  obtain ⟨e00, e01, e10, e11, e20, e21, e30, e31, e40, e41, e50, e51⟩ := index_maps t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  let r : Fin 50000 := ⟨t.val * 5000 + p.val, by omega⟩
  have hout : ((cfg0.win 5).blk t).view.emb (ix2 p q) = ix2 r q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  refine (cut_at _ t p q).trans ?_
  refine Eq.trans ?_ (read_at (layer m c) t (ix2 p q)).symm
  rw [hout]
  refine block_entry (iblk m c 0 t) (iblk m c 1 t) (iblk m c 2 t) (iblk m c 3 t) (iblk m c 4 t) _ _ _ _ _ r p q ?_ ?_ ?_ ?_ ?_
  · intro k
    have hk : k.val < 128 := k.isLt
    have hidx : ((cfg0.win 0).blk t).view.emb (ix2 p k) = ix2 r k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    refine (read_rows0 (V m c main_v13) t (ix2 p k)).trans ?_
    rw [hidx, found_aggregated]
  · intro k
    have hk : k.val < 128 := k.isLt
    have hidx : ((cfg0.win 1).blk t).view.emb (ix2 p k) = ix2 r k := by
      funext a; apply Fin.ext
      match a with
      | ⟨0, _⟩ => show win0_1.index t (0 : Fin 2) * 5000 + 1 * p.val = t.val * 5000 + p.val; omega
      | ⟨1, _⟩ => show win0_1.index t (1 : Fin 2) * 128 + 1 * k.val = k.val; omega
    refine (read_rows1 (V m c main_arg0) t (ix2 p k)).trans ?_
    rw [hidx, V_main_arg0]
  · intro k
    have hk : k.val < 128 := k.isLt
    have hidx : ((cfg0.win 2).blk t).view.emb (ix2 k q) = ix2 k q := by
      funext a; apply Fin.ext
      match a with
      | ⟨0, _⟩ => show win0_2.index t (0 : Fin 2) * 128 + 1 * k.val = k.val; omega
      | ⟨1, _⟩ => show win0_2.index t (1 : Fin 2) * 128 + 1 * q.val = q.val; omega
    refine (read_mat2 (V m c main_v14) t (ix2 k q)).trans ?_
    rw [hidx, found_relT]
  · intro k
    have hk : k.val < 128 := k.isLt
    have hidx : ((cfg0.win 3).blk t).view.emb (ix2 k q) = ix2 k q := by
      funext a; apply Fin.ext
      match a with
      | ⟨0, _⟩ => show win0_3.index t (0 : Fin 2) * 128 + 1 * k.val = k.val; omega
      | ⟨1, _⟩ => show win0_3.index t (1 : Fin 2) * 128 + 1 * q.val = q.val; omega
    refine (read_mat3 (V m c main_v15) t (ix2 k q)).trans ?_
    rw [hidx, found_rootT]
  · have hidx : ((cfg0.win 4).blk t).view.emb (ix2 (0 : Fin 1) q) = ix2 (0 : Fin 1) q := by
      funext a; apply Fin.ext
      match a with
      | ⟨0, _⟩ => show win0_4.index t (0 : Fin 2) * 1 + 1 * 0 = 0; omega
      | ⟨1, _⟩ => show win0_4.index t (1 : Fin 2) * 128 + 1 * q.val = q.val; omega
    refine (read_row4 (V m c main_v16) t (ix2 (0 : Fin 1) q)).trans ?_
    rw [hidx, found_biasRow]
    exact shapeCast_a_1a_apply _ _ (0 : Fin 1) q

end Cert.GraphConv.Blocks

end
-- ==== Proof.Blocks.lean ====
/-
  From the ten blocks to the whole array: each written block is a block of the layer and the blocks tile the array, so
  after the run the result array is the layer of the program's arguments.
-/
import proofs.«175848_j45200235823724_1_alg».proof.Proof.Written
import proofs.«175848_j45200235823724_1_alg».proof.Proof.Grid

noncomputable section

open scoped BigOperators

namespace Cert.GraphConv.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.GraphConv Cert.GraphConv.Grid

variable (m : (ℓ : Loc nD τ sig) → Buf (Elt Ideal) ℓ) (ρ : Dev nD → PrngReg)

/-- After the run the result array is the layer of the arguments. -/
theorem result_array (c : Dev nD) : (dats m 0 c).arrAt 5 cfg0.N = layer m c :=
  (dats m 0 c).arrAt_eq_of_cover 5 (layer m c) (fun t _ => written_eq m c t) tiled

/-- The kernel program's run: it ends with the result array at the layer of its arguments and the arguments unchanged. -/
theorem run : θ_run defs (onTc (τ := τ) (main (F := Ideal))) ⟨m, fun _ => 0, ρ⟩ fun r => ∀ c : Dev nD,
      r.2.mem ((c : Thread nD τ).loc main_v17) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (run_blocks m ρ)

end Cert.GraphConv.Blocks

end
-- ==== Proof.lean ====
/-
  A graph-convolution layer (50000 nodes, 800000 edges, 128 features) against its plain reference.

  Both programs first form the aggregated features agg: the feature rows gathered at the edges' source nodes and
  scatter-added at their destination nodes: by the same operations, so agg is one term of the arguments in both.
  The kernel program then transposes the two weight matrices, lays the bias out as a row, and in ten row blocks of
  5000 computes  max((agg·A + x·B) + b, 0)  with both products taken on values narrowed to bf16: on extended reals the
  narrowing is the identity and a product into a zero accumulator is the plain sum over the contracted axis. The
  reference computes  max(((agg·A) + b) + x·B, 0)  on whole arrays. Entry by entry both are

      max ( (Σ_k agg[r, k]·A[k, j] + Σ_k x[r, k]·B[k, j]) + b[j] , 0 )

  the only difference being where the bias is added, and addition of extended reals commutes and associates with no
  finiteness needed: the precondition is not used for the values.

  Conv.lean states the layer; RefConv.lean reads the reference's stages down to it; Body.lean reads the kernel body at an
  entry of a block; Operands.lean says what the region's operand arrays hold; Blocks.lean goes from the ten blocks to the
  array. The three programs' termination and unchanged arguments come from the generated frames and the generated
  reference run; no operation was rewritten when the kernel was idealized, so that conjunct is trivial.
-/
import proofs.«175848_j45200235823724_1_alg».proof.Defs
import proofs.«175848_j45200235823724_1_alg».proof.Proof.Gen.Kernel
import proofs.«175848_j45200235823724_1_alg».proof.Proof.Gen.Kernel.Skeleton
import proofs.«175848_j45200235823724_1_alg».proof.Proof.Gen.Kernel.Launch
import proofs.«175848_j45200235823724_1_alg».proof.Proof.Gen.Kernel.Points
import proofs.«175848_j45200235823724_1_alg».proof.Proof.Gen.Kernel.Frame
import proofs.«175848_j45200235823724_1_alg».proof.Proof.Gen.KernelIdeal
import proofs.«175848_j45200235823724_1_alg».proof.Proof.Gen.KernelIdeal.Skeleton
import proofs.«175848_j45200235823724_1_alg».proof.Proof.Gen.KernelIdeal.Launch
import proofs.«175848_j45200235823724_1_alg».proof.Proof.Gen.KernelIdeal.Points
import proofs.«175848_j45200235823724_1_alg».proof.Proof.Gen.KernelIdeal.Frame
import proofs.«175848_j45200235823724_1_alg».proof.Proof.Gen.ReferenceIdeal
import proofs.«175848_j45200235823724_1_alg».proof.Proof.Gen.Pre_finite_inputs
import proofs.«175848_j45200235823724_1_alg».proof.Proof.Gen.KernelIdeal.Value
import proofs.«175848_j45200235823724_1_alg».proof.Proof.Gen.ReferenceIdeal.Run
import proofs.«175848_j45200235823724_1_alg».proof.Proof.Gen.ReferenceIdeal.Read
import proofs.«175848_j45200235823724_1_alg».proof.Proof.RefConv
import proofs.«175848_j45200235823724_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- The aggregated features are one term of the arguments in both programs: the same gather and scatter-add. -/
theorem aggregated_eq (x0 : (⟨Cert.KernelIdeal.S50000x128, .f32⟩ : BufTy).Contents (Elt Ideal))
    (x1 : (⟨Cert.KernelIdeal.S2x800000, .i32⟩ : BufTy).Contents (Elt Ideal)) :
    Cert.ReferenceIdeal.Read.val_main_v13 (F := Ideal) x0 x1 = Cert.GraphConv.Operands.aggregated (F := Ideal) x0 x1 := rfl

/-- From arguments that agree both programs end with the layer of those arguments in their result arrays. -/
theorem algebraic : Cert.algebraic_KernelIdeal_ReferenceIdeal := by
  intro m ρ m' ρ' _ hagree
  refine ⟨_, Cert.GraphConv.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _ _ _).trans ?_
  rw [Cert.GraphConv.Ref.result_eq, (hagree c).1, (hagree c).2.1, (hagree c).2.2.1, (hagree c).2.2.2.1, (hagree c).2.2.2.2,
    aggregated_eq]
  unfold Cert.GraphConv.Blocks.layer Cert.ReferenceIdeal.Read.val_main_v14 Cert.ReferenceIdeal.Read.val_main_v19
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
